-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x21 : S_.BroadcastsInDim S50000x21 (![] : Fin 0 → Fin S50000x21.rank)
  reducesTo_S50000x21_S_d0_1 : S50000x21.ReducesTo [0, 1] S_
  h_S_ : 0 < S_.numel
  bcast_S_S21x256 : S_.BroadcastsInDim S21x256 (![] : Fin 0 → Fin S21x256.rank)
  reducesTo_S21x256_S_d0_1 : S21x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_v13 : IVec S_ 1) (main_v16 : IVec S21x256 1) : IVec S_ 1 :=
  let main_c_5 : IVec S_ 1 := constantI S_ 1 1#1
  let main_v17 : IVec S_ 1 := (fun x v => Host.reduce IntOp.andi x v reducesTo_S21x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x21 .f32) (main_arg1 : IVec S2x800000 32) (main_arg2 : FVec F S21x256 .f32) (main_arg3 : FVec F S256 .f32) (main_arg4 : FVec F S21x256 .f32) (main_arg5 : FVec F S256x128 .f32) (main_arg6 : FVec F S128 .f32) (main_arg7 : FVec F S256x128 .f32) (main_arg8 : FVec F S128x128 .f32) (main_arg9 : FVec F S128 .f32) (main_arg10 : FVec F S128x128 .f32) : IVec S_ 1 :=
  let main_v0 : FVec F S50000x21 .f32 := Host.absf main_arg0
  let main_cst : FVec F S_ .f32 := constant S_ .f32 0x7F800000#32
  let main_v1 : FVec F S50000x21 .f32 := broadcastInDim S50000x21 ![] bcast_S_S50000x21 main_cst
  let main_v2 : IVec S50000x21 1 := cmpf .olt main_v0 main_v1
  let main_c : IVec S_ 1 := constantI S_ 1 1#1
  let main_v3 : IVec S_ 1 := (fun x v => Host.reduce IntOp.andi x v reducesTo_S50000x21_S_d0_1 h_S_) main_v2 main_c
  let main_v4 : FVec F S21x256 .f32 := Host.absf main_arg2
  let main_cst_0 : FVec F S_ .f32 := constant S_ .f32 0x7F800000#32
  let main_v5 : FVec F S21x256 .f32 := broadcastInDim S21x256 ![] bcast_S_S21x256 main_cst_0
  let main_v6 : IVec S21x256 1 := cmpf .olt main_v4 main_v5
  let main_c_1 : IVec S_ 1 := constantI S_ 1 1#1
  let main_v7 : IVec S_ 1 := (fun x v => Host.reduce IntOp.andi x v reducesTo_S21x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S21x256 .f32 := Host.absf main_arg4
  let main_cst_4 : FVec F S_ .f32 := constant S_ .f32 0x7F800000#32
  let main_v15 : FVec F S21x256 .f32 := broadcastInDim S21x256 ![] bcast_S_S21x256 main_cst_4
  let main_v16 : IVec S21x256 1 := cmpf .olt main_v14 main_v15
  fn_part1 (F := F) main_arg5 main_arg6 main_arg7 main_arg8 main_arg9 main_arg10 main_v13 main_v16
-- ==== Kernel.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x21 : Shape := ⟨2, ![800000, 21]⟩
abbrev S1x256 : Shape := ⟨2, ![1, 256]⟩
abbrev S50000x256 : Shape := ⟨2, ![50000, 256]⟩
abbrev S2000x21 : Shape := ⟨2, ![2000, 21]⟩
abbrev S2000x1 : Shape := ⟨2, ![2000, 1]⟩
abbrev S2000x256 : Shape := ⟨2, ![2000, 256]⟩
abbrev S800000x256 : Shape := ⟨2, ![800000, 256]⟩
abbrev S1x128 : Shape := ⟨2, ![1, 128]⟩
abbrev S50000x128 : Shape := ⟨2, ![50000, 128]⟩
abbrev S2000x128 : Shape := ⟨2, ![2000, 128]⟩
abbrev S800000x128 : Shape := ⟨2, ![800000, 128]⟩

abbrev nBuf : Space → Nat
  | .hbm => 80
  | .vmem => 33
  | .smem => 0
  | _ => 0

abbrev bufTy : (tb : Table) → Fin (tcTables nBuf tb) → BufTy
  | .hbm, ⟨0, _⟩ => ⟨S50000x21, .f32⟩
  | .hbm, ⟨1, _⟩ => ⟨S2x800000, .i32⟩
  | .hbm, ⟨2, _⟩ => ⟨S21x256, .f32⟩
  | .hbm, ⟨3, _⟩ => ⟨S256, .f32⟩
  | .hbm, ⟨4, _⟩ => ⟨S21x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x21, .f32⟩
  | .hbm, ⟨44, _⟩ => ⟨S_, .f32⟩
  | .hbm, ⟨45, _⟩ => ⟨S50000x21, .f32⟩
  | .hbm, ⟨46, _⟩ => ⟨S800000x1, .i32⟩
  | .hbm, ⟨47, _⟩ => ⟨S50000x21, .f32⟩
  | .hbm, ⟨48, _⟩ => ⟨S1x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128, .f32⟩
  | .hbm, ⟨79, _⟩ => ⟨S50000x128, .f32⟩
  | .local _ .vmem, ⟨0, _⟩ => ⟨S2000x21, .f32⟩
  | .local _ .vmem, ⟨1, _⟩ => ⟨S2000x21, .f32⟩
  | .local _ .vmem, ⟨2, _⟩ => ⟨S2000x1, .f32⟩
  | .local _ .vmem, ⟨3, _⟩ => ⟨S2000x1, .f32⟩
  | .local _ .vmem, ⟨4, _⟩ => ⟨S2000x21, .f32⟩
  | .local _ .vmem, ⟨5, _⟩ => ⟨S2000x21, .f32⟩
  | .local _ .vmem, ⟨6, _⟩ => ⟨S21x256, .f32⟩
  | .local _ .vmem, ⟨7, _⟩ => ⟨S1x256, .f32⟩
  | .local _ .vmem, ⟨8, _⟩ => ⟨S21x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x128, .f32⟩
  | .local _ .vmem, ⟨18, _⟩ => ⟨S1x128, .f32⟩
  | .local _ .vmem, ⟨19, _⟩ => ⟨S256x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | _, _ => ⟨S50000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S21x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S21x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x21 : S_.BroadcastsInDim S50000x21 (![] : Fin 0 → Fin S50000x21.rank)
  shapeCasts_S256_S1x256 : S256.ShapeCasts S1x256
  inb_S2000x21_S2000x21_0_0 : ∀ a, (![0, 0] : Fin 2 → Nat) a + S2000x21.size a ≤ S2000x21.size a
  h_S2000x21 : 0 < S2000x21.numel
  shapeCasts_S2000x21_S2000x21 : S2000x21.ShapeCasts S2000x21
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x21 : S2000x1.Broadcasts S2000x21
  bitsLt_bf16_f32 : FTy.bits .bf16 < FTy.bits .f32
  inb_S21x256_S21x256_0_0 : ∀ a, (![0, 0] : Fin 2 → Nat) a + S21x256.size a ≤ S21x256.size a
  h_S21x256 : 0 < S21x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  gather_S50000x21_S800000x1_S800000x21_1_0_n_n_0_1_121_wf : GatherDims.WF S50000x21 S800000x1 S800000x21 [1] [0] [] [0] [] 1 ![1, 21]
  scatter_S50000x21_S800000x1_S800000x21_1_0_0_1_wf : ScatterDims.WF S50000x21 S800000x1 S800000x21 [1] [0] [0] 1
  dot_S2000x21_S21x256_S2000x256_1_0_0_1_n_n_wf : DotDims.WF S2000x21 S21x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x21.size a ≤ S50000x21.size a
  hwx0_0 : ∀ i : grid0.Coords, EltTy.bits .f32 = 32 ∨ (Rect.block (s := S50000x21) S2000x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x21.size a ≤ S50000x21.size a
  hwx0_2 : ∀ i : grid0.Coords, EltTy.bits .f32 = 32 ∨ (Rect.block (s := S50000x21) S2000x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x256.size a ≤ S21x256.size a
  hwx0_3 : ∀ i : grid0.Coords, EltTy.bits .f32 = 32 ∨ (Rect.block (s := S21x256) S21x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S21x256.size a ≤ S21x256.size a
  hwx0_5 : ∀ i : grid0.Coords, EltTy.bits .f32 = 32 ∨ (Rect.block (s := S21x256) S21x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x21_S800000x1_S800000x21_1_0_n_n_0_1_121 : GatherDims S50000x21 S800000x1 S800000x21 where
  offsetDims := [1]
  collapsedSliceDims := [0]
  operandBatchingDims := []
  startIndicesBatchingDims := []
  startIndexMap := [0]
  indexVectorDim := 1
  sliceSizes := ![1, 21]
  wf := gather_S50000x21_S800000x1_S800000x21_1_0_n_n_0_1_121_wf
def scatter_S50000x21_S800000x1_S800000x21_1_0_0_1 : ScatterDims S50000x21 S800000x1 S800000x21 where
  updateWindowDims := [1]
  insertedWindowDims := [0]
  scatterDimsToOperandDims := [0]
  indexVectorDim := 1
  wf := scatter_S50000x21_S800000x1_S800000x21_1_0_0_1_wf
def dot_S2000x21_S21x256_S2000x256_1_0_0_1_n_n : DotDims S2000x21 S21x256 S2000x256 where
  lhsContracting := [1]
  rhsContracting := [0]
  lhsNonContracting := [0]
  rhsNonContracting := [1]
  lhsBatch := []
  rhsBatch := []
  wf := dot_S2000x21_S21x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v25) S2000x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S21x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S21x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x21 : Shape := ⟨2, ![50000, 21]⟩
abbrev S2x800000 : Shape := ⟨2, ![2, 800000]⟩
abbrev S21x256 : Shape := ⟨2, ![21, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x21 : Shape := ⟨2, ![800000, 21]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x21, .f32⟩
  | .hbm, ⟨1, _⟩ => ⟨S2x800000, .i32⟩
  | .hbm, ⟨2, _⟩ => ⟨S21x256, .f32⟩
  | .hbm, ⟨3, _⟩ => ⟨S256, .f32⟩
  | .hbm, ⟨4, _⟩ => ⟨S21x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x21, .f32⟩
  | .hbm, ⟨44, _⟩ => ⟨S_, .f32⟩
  | .hbm, ⟨45, _⟩ => ⟨S50000x21, .f32⟩
  | .hbm, ⟨46, _⟩ => ⟨S800000x1, .i32⟩
  | .hbm, ⟨47, _⟩ => ⟨S50000x21, .f32⟩
  | .hbm, ⟨48, _⟩ => ⟨S50000x21, .f32⟩
  | .hbm, ⟨49, _⟩ => ⟨S50000x21, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S50000x128, .f32⟩
  | _, _ => ⟨S50000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x21 : S_.BroadcastsInDim S50000x21 (![] : Fin 0 → Fin S50000x21.rank)
  bcast_S50000x1_S50000x21_0_1 : S50000x1.BroadcastsInDim S50000x21 (![0, 1] : Fin 2 → Fin S50000x21.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000x21_S800000x1_S800000x21_1_0_n_n_0_1_121_wf : GatherDims.WF S50000x21 S800000x1 S800000x21 [1] [0] [] [0] [] 1 ![1, 21]
  scatter_S50000x21_S800000x1_S800000x21_1_0_0_1_wf : ScatterDims.WF S50000x21 S800000x1 S800000x21 [1] [0] [0] 1
  dot_S50000x21_S21x256_S50000x256_1_0_0_1_n_n_wf : DotDims.WF S50000x21 S21x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x21_S800000x1_S800000x21_1_0_n_n_0_1_121 : GatherDims S50000x21 S800000x1 S800000x21 where
  offsetDims := [1]
  collapsedSliceDims := [0]
  operandBatchingDims := []
  startIndicesBatchingDims := []
  startIndexMap := [0]
  indexVectorDim := 1
  sliceSizes := ![1, 21]
  wf := gather_S50000x21_S800000x1_S800000x21_1_0_n_n_0_1_121_wf
def scatter_S50000x21_S800000x1_S800000x21_1_0_0_1 : ScatterDims S50000x21 S800000x1 S800000x21 where
  updateWindowDims := [1]
  insertedWindowDims := [0]
  scatterDimsToOperandDims := [0]
  indexVectorDim := 1
  wf := scatter_S50000x21_S800000x1_S800000x21_1_0_0_1_wf
def dot_S50000x21_S21x256_S50000x256_1_0_0_1_n_n : DotDims S50000x21 S21x256 S50000x256 where
  lhsContracting := [1]
  rhsContracting := [0]
  lhsNonContracting := [0]
  rhsNonContracting := [1]
  lhsBatch := []
  rhsBatch := []
  wf := dot_S50000x21_S21x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.SageLayer.lean ====
/-
  One mean-aggregation graph-convolution layer on the extended reals.

  A node p has a row agg(p, ·) of neighbour sums, a reciprocal degree inv(p), and its own features h(p, ·). The layer forms the
  neighbour mean mean(p, c) = agg(p, c) · inv(p), then

      out(p, q) = act ( ( Σ_c mean(p, c) · Wl(c, q)  +  bl(q) )  +  Σ_c h(p, c) · Wr(c, q) ),

  with act the activation (the positive part, or nothing). The two sums are plain finite sums over the contracted coordinate
  (addition on the extended reals is commutative and associative, so no order is left in them); the three additions keep the
  order written here, and nothing asks that an entry be finite.

  Row p of the output depends on row p of agg, inv and h only. So the layer computed on a block of consecutive rows, with the
  whole weight matrices and the whole bias, is that block of rows of the layer computed on all rows (`layer_rows`): this is
  what lets a row-tiled computation be read as one whole-array function.
-/
import proofs.«115768_j68693706932385_1_alg».proof.Proof.LibSideBySide
import Idealize.ShloMosaic.Lib.ValueIdx

noncomputable section

namespace SageLayer

open Idealize.ShloMosaic Idealize.ShloMosaic.ValueIdx

variable {n a b : Nat}

/-- The neighbour mean: row p of the neighbour sums scaled by that row's reciprocal degree. -/
def mean (agg : (⟨2, ![n, a]⟩ : Shape).Idx → EReal) (inv : (⟨2, ![n, 1]⟩ : Shape).Idx → EReal) :
    (⟨2, ![n, a]⟩ : Shape).Idx → EReal :=
  fun i => agg i * inv (ix2 (i 0) (0 : Fin 1))

/-- The layer: the mean through Wl, plus the bias, plus the node's own features through Wr, then the activation. -/
def layer (act : EReal → EReal) (agg : (⟨2, ![n, a]⟩ : Shape).Idx → EReal) (inv : (⟨2, ![n, 1]⟩ : Shape).Idx → EReal)
    (h : (⟨2, ![n, a]⟩ : Shape).Idx → EReal) (Wl : (⟨2, ![a, b]⟩ : Shape).Idx → EReal) (bl : (⟨1, ![b]⟩ : Shape).Idx → EReal)
    (Wr : (⟨2, ![a, b]⟩ : Shape).Idx → EReal) : (⟨2, ![n, b]⟩ : Shape).Idx → EReal :=
  fun j => act ((SideBySide.entry (mean agg inv) Wl (j 0) (j 1) + bl (ix1 (j 1))) + SideBySide.entry h Wr (j 0) (j 1))

theorem mean_apply (agg : (⟨2, ![n, a]⟩ : Shape).Idx → EReal) (inv : (⟨2, ![n, 1]⟩ : Shape).Idx → EReal) (p : Fin n) (c : Fin a) :
    mean agg inv (ix2 p c) = agg (ix2 p c) * inv (ix2 p (0 : Fin 1)) := rfl

theorem layer_apply (act : EReal → EReal) (agg : (⟨2, ![n, a]⟩ : Shape).Idx → EReal) (inv : (⟨2, ![n, 1]⟩ : Shape).Idx → EReal)
    (h : (⟨2, ![n, a]⟩ : Shape).Idx → EReal) (Wl : (⟨2, ![a, b]⟩ : Shape).Idx → EReal) (bl : (⟨1, ![b]⟩ : Shape).Idx → EReal)
    (Wr : (⟨2, ![a, b]⟩ : Shape).Idx → EReal) (p : Fin n) (q : Fin b) :
    layer act agg inv h Wl bl Wr (ix2 p q)
      = act ((SideBySide.entry (mean agg inv) Wl p q + bl (ix1 q)) + SideBySide.entry h Wr p q) := rfl

/-- The positive part, the zero being the float word of +0. -/
def relu (x : EReal) : EReal := max x (Ideal.ofBits .f32 0x00000000#32)

/-- A block of rows off … off + r − 1 of the layer is the layer of those rows of agg, inv and h. -/
theorem layer_rows {R r : Nat} (act : EReal → EReal)
    (AGG : (⟨2, ![R, a]⟩ : Shape).Idx → EReal) (INV : (⟨2, ![R, 1]⟩ : Shape).Idx → EReal) (H : (⟨2, ![R, a]⟩ : Shape).Idx → EReal)
    (agg : (⟨2, ![r, a]⟩ : Shape).Idx → EReal) (inv : (⟨2, ![r, 1]⟩ : Shape).Idx → EReal) (h : (⟨2, ![r, a]⟩ : Shape).Idx → EReal)
    (Wl : (⟨2, ![a, b]⟩ : Shape).Idx → EReal) (bl : (⟨1, ![b]⟩ : Shape).Idx → EReal) (Wr : (⟨2, ![a, b]⟩ : Shape).Idx → EReal)
    (off : Nat) (hoff : off + r ≤ R)
    (hagg : ∀ (p : Fin r) (c : Fin a), agg (ix2 p c) = AGG (ix2 ⟨off + p.val, by have := p.isLt; omega⟩ c))
    (hinv : ∀ (p : Fin r), inv (ix2 p (0 : Fin 1)) = INV (ix2 ⟨off + p.val, by have := p.isLt; omega⟩ (0 : Fin 1)))
    (hh : ∀ (p : Fin r) (c : Fin a), h (ix2 p c) = H (ix2 ⟨off + p.val, by have := p.isLt; omega⟩ c))
    (p : Fin r) (q : Fin b) :
    layer act agg inv h Wl bl Wr (ix2 p q)
      = layer act AGG INV H Wl bl Wr (ix2 ⟨off + p.val, by have := p.isLt; omega⟩ q) := by
  rw [layer_apply, layer_apply]
  have e₁ : SideBySide.entry (mean agg inv) Wl p q
      = SideBySide.entry (mean AGG INV) Wl ⟨off + p.val, by have := p.isLt; omega⟩ q := by
    unfold SideBySide.entry
    exact Finset.sum_congr rfl fun c _ => by rw [mean_apply, mean_apply, hagg, hinv]
  have e₂ : SideBySide.entry h Wr p q = SideBySide.entry H Wr ⟨off + p.val, by have := p.isLt; omega⟩ q := by
    unfold SideBySide.entry
    exact Finset.sum_congr rfl fun c _ => by rw [hh]
  rw [e₁, e₂]

end SageLayer

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Layer0.lean ====
/-
  The first layer's row-tiled computation, read as one whole-array function.

  The grid has 25 points; point t works on rows 2000·t … 2000·t + 1999 of the neighbour sums, of the reciprocal degrees and of
  the node features, and on the whole of both weight matrices and of the bias row. What it computes on its 2000 rows is the
  layer (`SageLayer.layer`) of those rows, with the positive part as activation: the two matrix-unit products into zero blocks
  are plain sums over the contracted coordinate, and narrowing a factor's float format changes nothing at the ideal values. A
  block of rows of the layer being the layer of that block of rows, what point t writes back is rows 2000·t … of the layer
  of the whole arrays; the 25 blocks cover all 50000 rows, so the output array ends holding the layer of the whole arrays.
-/
import proofs.«115768_j68693706932385_1_alg».proof.Proof.Gen.KernelIdeal.Frame
import proofs.«115768_j68693706932385_1_alg».proof.Proof.SageLayer
import proofs.«115768_j68693706932385_1_alg».proof.Proof.LibKeepdims
import Idealize.ShloMosaic.Lib.Pipeline.Value
import Idealize.ShloMosaic.Lib.ValueLayout

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- What a grid point computes on its blocks is the layer of those blocks. -/
theorem payload_eq (x0 : Vec Ideal S2000x21 .f32) (x1 : Vec Ideal S2000x1 .f32) (x2 : Vec Ideal S2000x21 .f32)
    (x3 : Vec Ideal S21x256 .f32) (x5 : Vec Ideal S21x256 .f32) (x4 : Vec Ideal S1x256 .f32) :
    k0_pay1 x0 x1 x2 x3 x5 x4
      = SageLayer.layer SageLayer.relu x0 x1 x2 x3 (fun i => x4 (ix2 (0 : Fin 1) (i 0))) x5 := by
  funext j
  obtain ⟨p, q, rfl⟩ : ∃ (p : Fin 2000) (q : Fin 256), j = ix2 p q := ⟨j 0, j 1, eq_ix2 j⟩
  rw [SageLayer.layer_apply]
  unfold k0_pay1
  simp only [maximumf_apply, addf_apply, broadcast_apply, shapeCast_self]
  rw [SideBySide.kernelProduct_apply dot_S2000x21_S21x256_S2000x256_1_0_0_1_n_n rfl,
    SideBySide.kernelProduct_apply dot_S2000x21_S21x256_S2000x256_1_0_0_1_n_n rfl, broadcastTo_1b_ab_apply]
  have e1 : SideBySide.entry (truncf (F := Ideal) .bf16 (mulf (F := Ideal) x0 (broadcastTo S2000x21 x1 broadcasts_S2000x1_S2000x21)) bitsLt_bf16_f32)
      (truncf (F := Ideal) .bf16 x3 bitsLt_bf16_f32) p q = SideBySide.entry (SageLayer.mean x0 x1) x3 p q := by
    unfold SideBySide.entry
    refine Finset.sum_congr rfl fun c _ => ?_
    rw [truncf_apply, truncf_apply, mulf_apply, broadcastTo_a1_ab_apply, SageLayer.mean_apply]
  have e2 : SideBySide.entry (truncf (F := Ideal) .bf16 x2 bitsLt_bf16_f32) (truncf (F := Ideal) .bf16 x5 bitsLt_bf16_f32) p q
      = SideBySide.entry x2 x5 p q := rfl
  rw [e1, e2]
  rfl

section
variable (V : (c : Dev nD) → (b : Ref sig .tc) → Buf (Elt Ideal) ((c : Thread nD τ).loc b))

/-- The printed index maps over the grid: a row-tiled window sits at block row t, a whole-array window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := by
  exact Nat.lt_of_lt_of_eq t.isLt N_0

/-- Point t's block of the neighbour sums is rows 2000·t … of the array. -/
theorem blk0_apply (c : Dev nD) (t : Fin cfg0.N) (p : Fin 2000) (k : Fin 21) :
    (iblk0 V c 0 t : Vec Ideal S2000x21 .f32) (ix2 p k)
      = (V c main_v25 : S50000x21.Idx → EReal) (ix2 ⟨2000 * t.val + p.val, by have := t_lt t; have := p.isLt; omega⟩ k) := by
  obtain ⟨e0, e1, -⟩ := idx_facts t
  unfold iblk0
  rw [View.read_apply]
  show V c main_v25 _ = V c main_v25 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 21 + 1 * k.val = k.val; rw [e1]; omega

/-- Point t's block of the reciprocal degrees is rows 2000·t … of the column. -/
theorem blk1_apply (c : Dev nD) (t : Fin cfg0.N) (p : Fin 2000) :
    (iblk0 V c 1 t : Vec Ideal S2000x1 .f32) (ix2 p (0 : Fin 1))
      = (V c main_v15 : S50000x1.Idx → EReal) (ix2 ⟨2000 * t.val + p.val, by have := t_lt t; have := p.isLt; omega⟩ (0 : Fin 1)) := by
  obtain ⟨-, -, e0, e1, -⟩ := idx_facts t
  unfold iblk0
  rw [View.read_apply]
  show V c main_v15 _ = V c main_v15 _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 1 + 1 * 0 = 0; rw [e1]

/-- Point t's block of the node features is rows 2000·t … of the array. -/
theorem blk2_apply (c : Dev nD) (t : Fin cfg0.N) (p : Fin 2000) (k : Fin 21) :
    (iblk0 V c 2 t : Vec Ideal S2000x21 .f32) (ix2 p k)
      = (V c main_arg0 : S50000x21.Idx → EReal) (ix2 ⟨2000 * t.val + p.val, by have := t_lt t; have := p.isLt; omega⟩ k) := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 2000 + 1 * p.val = 2000 * t.val + p.val; rw [e0]; omega
  | ⟨1, _⟩ => show win0_2.index t (1 : Fin 2) * 21 + 1 * k.val = k.val; rw [e1]; omega

/-- Every point's block of the first weight matrix is the whole matrix. -/
theorem blk3_eq (c : Dev nD) (t : Fin cfg0.N) : (iblk0 V c 3 t : Vec Ideal S21x256 .f32) = V c main_arg2 := by
  obtain ⟨-, -, -, -, -, -, e0, e1, -⟩ := idx_facts t
  funext x
  unfold iblk0
  rw [View.read_apply]
  show V c main_arg2 _ = V c main_arg2 x
  congr 1
  funext a
  apply Fin.ext
  match a with
  | ⟨0, _⟩ => show win0_3.index t (0 : Fin 2) * 21 + 1 * (x 0).val = (x 0).val; rw [e0]; omega
  | ⟨1, _⟩ => show win0_3.index t (1 : Fin 2) * 256 + 1 * (x 1).val = (x 1).val; rw [e1]; omega

/-- Every point's block of the bias row is the whole row. -/
theorem blk4_eq (c : Dev nD) (t : Fin cfg0.N) : (iblk0 V c 4 t : Vec Ideal S1x256 .f32) = V c main_v26 := by
  obtain ⟨-, -, -, -, -, -, -, -, e0, e1, -⟩ := idx_facts t
  funext x
  unfold iblk0
  rw [View.read_apply]
  show V c main_v26 _ = V c main_v26 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- Every point's block of the second weight matrix is the whole matrix. -/
theorem blk5_eq (c : Dev nD) (t : Fin cfg0.N) : (iblk0 V c 5 t : Vec Ideal S21x256 .f32) = V c main_arg4 := by
  obtain ⟨-, -, -, -, -, -, -, -, -, -, e0, e1, -⟩ := idx_facts t
  funext x
  unfold iblk0
  rw [View.read_apply]
  show V c main_arg4 _ = V c main_arg4 x
  congr 1
  funext a
  apply Fin.ext
  match a with
  | ⟨0, _⟩ => show win0_5.index t (0 : Fin 2) * 21 + 1 * (x 0).val = (x 0).val; rw [e0]; omega
  | ⟨1, _⟩ => show win0_5.index t (1 : Fin 2) * 256 + 1 * (x 1).val = (x 1).val; rw [e1]; omega

/-- The layer of the arrays the region is entered with. -/
abbrev whole (c : Dev nD) : S50000x256.Idx → EReal :=
  SageLayer.layer SageLayer.relu (V c main_v25) (V c main_v15) (V c main_arg0) (V c main_arg2)
    (fun i => (V c main_v26 : S1x256.Idx → EReal) (ix2 (0 : Fin 1) (i 0))) (V c main_arg4)

/-- What point t writes back is rows 2000·t … 2000·t + 1999 of the layer of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S2000x21) hz, View.ld_unit_zero (S := S2000x1) hz, View.ld_unit_zero (S := S21x256) hz,
    View.ld_unit_zero (S := S1x256) hz]
  rw [payload_eq, blk3_eq V c t, blk4_eq V c t, blk5_eq V c t]
  funext j
  rw [View.read_apply]
  show SageLayer.layer SageLayer.relu (iblk0 V c 0 t) (iblk0 V c 1 t) (iblk0 V c 2 t) (V c main_arg2)
    (fun i => (V c main_v26 : S1x256.Idx → EReal) (ix2 (0 : Fin 1) (i 0))) (V c main_arg4) j = _
  obtain ⟨p, q, rfl⟩ : ∃ (p : Fin 2000) (q : Fin 256), j = ix2 p q := ⟨j 0, j 1, eq_ix2 j⟩
  have hemb : ((cfg0.win 6).blk t).view.emb (ix2 p q)
      = (ix2 ⟨2000 * t.val + p.val, by have := t_lt t; have := p.isLt; omega⟩ q : S50000x256.Idx) := by
    obtain ⟨-, -, -, -, -, -, -, -, -, -, -, -, e0, e1⟩ := idx_facts t
    funext a
    apply Fin.ext
    match a with
    | ⟨0, _⟩ => show win0_6.index t (0 : Fin 2) * 2000 + 1 * p.val = 2000 * t.val + p.val; rw [e0]; omega
    | ⟨1, _⟩ => show win0_6.index t (1 : Fin 2) * 256 + 1 * q.val = q.val; rw [e1]; omega
  rw [hemb]
  exact SageLayer.layer_rows SageLayer.relu (V c main_v25) (V c main_v15) (V c main_arg0) (iblk0 V c 0 t) (iblk0 V c 1 t)
    (iblk0 V c 2 t) (V c main_arg2) (fun i => (V c main_v26 : S1x256.Idx → EReal) (ix2 (0 : Fin 1) (i 0))) (V c main_arg4)
    (2000 * t.val) (by have := t_lt t; omega) (fun p k => blk0_apply V c t p k) (fun p => blk1_apply V c t p)
    (fun p k => blk2_apply V c t p k) p q

/-- An index of the output array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v27).slice (win0_6.rect t)).set ↔ _
  rw [View.set_slice_whole, Rect.mem_set_unit]
  exact Iff.rfl

/-- The 25 blocks of 2000 rows cover the 50000 rows: row r is in the block of point r / 2000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  have hlt : (i 0).val / 2000 < cfg0.N := by rw [hN]; omega
  refine ⟨⟨(i 0).val / 2000, hlt⟩, flush0_6 _, ?_⟩
  rw [mem_blk]
  obtain ⟨-, -, -, -, -, -, -, -, -, -, -, -, e0, e1⟩ := idx_facts ⟨(i 0).val / 2000, hlt⟩
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, hlt⟩ (1 : Fin 2) * 256 ≤ (i 1).val
      ∧ (i 1).val < win0_6.index ⟨(i 0).val / 2000, hlt⟩ (1 : Fin 2) * 256 + 256
    rw [e1]
    omega

/-- The region's output array ends holding the layer of the arrays the region was entered with. -/
theorem final (c : Dev nD) : (dat0 V c).arrAt 6 cfg0.N = whole V c :=
  (dat0 V c).arrAt_eq_of_cover 6 (whole V c) (fun t _ => flushed_eq V c t) (cover)

end

end Cert.KernelIdeal.Layer0

end
-- ==== Proof.Layer1.lean ====
/-
  The second layer's row-tiled computation, read as one whole-array function.

  The grid has 25 points; point t works on rows 2000·t … 2000·t + 1999 of the neighbour sums, of the reciprocal degrees and of
  the node features, and on the whole of both weight matrices and of the bias row. What it computes on its 2000 rows is the
  layer (`SageLayer.layer`) of those rows, with the positive part as activation: the two matrix-unit products into zero blocks
  are plain sums over the contracted coordinate, and narrowing a factor's float format changes nothing at the ideal values. A
  block of rows of the layer being the layer of that block of rows, what point t writes back is rows 2000·t … of the layer
  of the whole arrays; the 25 blocks cover all 50000 rows, so the output array ends holding the layer of the whole arrays.
-/
import proofs.«115768_j68693706932385_1_alg».proof.Proof.Gen.KernelIdeal.Frame
import proofs.«115768_j68693706932385_1_alg».proof.Proof.SageLayer
import proofs.«115768_j68693706932385_1_alg».proof.Proof.LibKeepdims
import Idealize.ShloMosaic.Lib.Pipeline.Value
import Idealize.ShloMosaic.Lib.ValueLayout

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- What a grid point computes on its blocks is the layer of those blocks. -/
theorem payload_eq (x0 : Vec Ideal S2000x256 .f32) (x1 : Vec Ideal S2000x1 .f32) (x2 : Vec Ideal S2000x256 .f32)
    (x3 : Vec Ideal S256x128 .f32) (x5 : Vec Ideal S256x128 .f32) (x4 : Vec Ideal S1x128 .f32) :
    k1_pay1 x0 x1 x2 x3 x5 x4
      = SageLayer.layer SageLayer.relu x0 x1 x2 x3 (fun i => x4 (ix2 (0 : Fin 1) (i 0))) x5 := by
  funext j
  obtain ⟨p, q, rfl⟩ : ∃ (p : Fin 2000) (q : Fin 128), j = ix2 p q := ⟨j 0, j 1, eq_ix2 j⟩
  rw [SageLayer.layer_apply]
  unfold k1_pay1
  simp only [maximumf_apply, addf_apply, broadcast_apply, shapeCast_self]
  rw [SideBySide.kernelProduct_apply dot_S2000x256_S256x128_S2000x128_1_0_0_1_n_n rfl,
    SideBySide.kernelProduct_apply dot_S2000x256_S256x128_S2000x128_1_0_0_1_n_n rfl, broadcastTo_1b_ab_apply]
  have e1 : SideBySide.entry (truncf (F := Ideal) .bf16 (mulf (F := Ideal) x0 (broadcastTo S2000x256 x1 broadcasts_S2000x1_S2000x256)) bitsLt_bf16_f32)
      (truncf (F := Ideal) .bf16 x3 bitsLt_bf16_f32) p q = SideBySide.entry (SageLayer.mean x0 x1) x3 p q := by
    unfold SideBySide.entry
    refine Finset.sum_congr rfl fun c _ => ?_
    rw [truncf_apply, truncf_apply, mulf_apply, broadcastTo_a1_ab_apply, SageLayer.mean_apply]
  have e2 : SideBySide.entry (truncf (F := Ideal) .bf16 x2 bitsLt_bf16_f32) (truncf (F := Ideal) .bf16 x5 bitsLt_bf16_f32) p q
      = SideBySide.entry x2 x5 p q := rfl
  rw [e1, e2]
  rfl

section
variable (V : (c : Dev nD) → (b : Ref sig .tc) → Buf (Elt Ideal) ((c : Thread nD τ).loc b))

/-- The printed index maps over the grid: a row-tiled window sits at block row t, a whole-array window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 25 := by
  exact Nat.lt_of_lt_of_eq t.isLt N_1

/-- Point t's block of the neighbour sums is rows 2000·t … of the array. -/
theorem blk0_apply (c : Dev nD) (t : Fin cfg1.N) (p : Fin 2000) (k : Fin 256) :
    (iblk1 V c 0 t : Vec Ideal S2000x256 .f32) (ix2 p k)
      = (V c main_v37 : S50000x256.Idx → EReal) (ix2 ⟨2000 * t.val + p.val, by have := t_lt t; have := p.isLt; omega⟩ k) := by
  obtain ⟨e0, e1, -⟩ := idx_facts t
  unfold iblk1
  rw [View.read_apply]
  show V c main_v37 _ = V c main_v37 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- Point t's block of the reciprocal degrees is rows 2000·t … of the column. -/
theorem blk1_apply (c : Dev nD) (t : Fin cfg1.N) (p : Fin 2000) :
    (iblk1 V c 1 t : Vec Ideal S2000x1 .f32) (ix2 p (0 : Fin 1))
      = (V c main_v15 : S50000x1.Idx → EReal) (ix2 ⟨2000 * t.val + p.val, by have := t_lt t; have := p.isLt; omega⟩ (0 : Fin 1)) := by
  obtain ⟨-, -, e0, e1, -⟩ := idx_facts t
  unfold iblk1
  rw [View.read_apply]
  show V c main_v15 _ = V c main_v15 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 1 + 1 * 0 = 0; rw [e1]

/-- Point t's block of the node features is rows 2000·t … of the array. -/
theorem blk2_apply (c : Dev nD) (t : Fin cfg1.N) (p : Fin 2000) (k : Fin 256) :
    (iblk1 V c 2 t : Vec Ideal S2000x256 .f32) (ix2 p k)
      = (V c main_v27 : S50000x256.Idx → EReal) (ix2 ⟨2000 * t.val + p.val, by have := t_lt t; have := p.isLt; omega⟩ k) := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t (0 : Fin 2) * 2000 + 1 * p.val = 2000 * t.val + p.val; rw [e0]; omega
  | ⟨1, _⟩ => show win1_2.index t (1 : Fin 2) * 256 + 1 * k.val = k.val; rw [e1]; omega

/-- Every point's block of the first weight matrix is the whole matrix. -/
theorem blk3_eq (c : Dev nD) (t : Fin cfg1.N) : (iblk1 V c 3 t : Vec Ideal S256x128 .f32) = V c main_arg5 := by
  obtain ⟨-, -, -, -, -, -, e0, e1, -⟩ := idx_facts t
  funext x
  unfold iblk1
  rw [View.read_apply]
  show V c main_arg5 _ = V c main_arg5 x
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 128 + 1 * (x 1).val = (x 1).val; rw [e1]; omega

/-- Every point's block of the bias row is the whole row. -/
theorem blk4_eq (c : Dev nD) (t : Fin cfg1.N) : (iblk1 V c 4 t : Vec Ideal S1x128 .f32) = V c main_v38 := by
  obtain ⟨-, -, -, -, -, -, -, -, e0, e1, -⟩ := idx_facts t
  funext x
  unfold iblk1
  rw [View.read_apply]
  show V c main_v38 _ = V c main_v38 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Every point's block of the second weight matrix is the whole matrix. -/
theorem blk5_eq (c : Dev nD) (t : Fin cfg1.N) : (iblk1 V c 5 t : Vec Ideal S256x128 .f32) = V c main_arg7 := by
  obtain ⟨-, -, -, -, -, -, -, -, -, -, e0, e1, -⟩ := idx_facts t
  funext x
  unfold iblk1
  rw [View.read_apply]
  show V c main_arg7 _ = V c main_arg7 x
  congr 1
  funext a
  apply Fin.ext
  match a with
  | ⟨0, _⟩ => show win1_5.index t (0 : Fin 2) * 256 + 1 * (x 0).val = (x 0).val; rw [e0]; omega
  | ⟨1, _⟩ => show win1_5.index t (1 : Fin 2) * 128 + 1 * (x 1).val = (x 1).val; rw [e1]; omega

/-- The layer of the arrays the region is entered with. -/
abbrev whole (c : Dev nD) : S50000x128.Idx → EReal :=
  SageLayer.layer SageLayer.relu (V c main_v37) (V c main_v15) (V c main_v27) (V c main_arg5)
    (fun i => (V c main_v38 : S1x128.Idx → EReal) (ix2 (0 : Fin 1) (i 0))) (V c main_arg7)

/-- What point t writes back is rows 2000·t … 2000·t + 1999 of the layer of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S256x128) hz,
    View.ld_unit_zero (S := S1x128) hz]
  rw [payload_eq, blk3_eq V c t, blk4_eq V c t, blk5_eq V c t]
  funext j
  rw [View.read_apply]
  show SageLayer.layer SageLayer.relu (iblk1 V c 0 t) (iblk1 V c 1 t) (iblk1 V c 2 t) (V c main_arg5)
    (fun i => (V c main_v38 : S1x128.Idx → EReal) (ix2 (0 : Fin 1) (i 0))) (V c main_arg7) j = _
  obtain ⟨p, q, rfl⟩ : ∃ (p : Fin 2000) (q : Fin 128), j = ix2 p q := ⟨j 0, j 1, eq_ix2 j⟩
  have hemb : ((cfg1.win 6).blk t).view.emb (ix2 p q)
      = (ix2 ⟨2000 * t.val + p.val, by have := t_lt t; have := p.isLt; omega⟩ q : S50000x128.Idx) := by
    obtain ⟨-, -, -, -, -, -, -, -, -, -, -, -, e0, e1⟩ := idx_facts t
    funext a
    apply Fin.ext
    match a with
    | ⟨0, _⟩ => show win1_6.index t (0 : Fin 2) * 2000 + 1 * p.val = 2000 * t.val + p.val; rw [e0]; omega
    | ⟨1, _⟩ => show win1_6.index t (1 : Fin 2) * 128 + 1 * q.val = q.val; rw [e1]; omega
  rw [hemb]
  exact SageLayer.layer_rows SageLayer.relu (V c main_v37) (V c main_v15) (V c main_v27) (iblk1 V c 0 t) (iblk1 V c 1 t)
    (iblk1 V c 2 t) (V c main_arg5) (fun i => (V c main_v38 : S1x128.Idx → EReal) (ix2 (0 : Fin 1) (i 0))) (V c main_arg7)
    (2000 * t.val) (by have := t_lt t; omega) (fun p k => blk0_apply V c t p k) (fun p => blk1_apply V c t p)
    (fun p k => blk2_apply V c t p k) p q

/-- An index of the output array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v39).slice (win1_6.rect t)).set ↔ _
  rw [View.set_slice_whole, Rect.mem_set_unit]
  exact Iff.rfl

/-- The 25 blocks of 2000 rows cover the 50000 rows: row r is in the block of point r / 2000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have hlt : (i 0).val / 2000 < cfg1.N := by rw [hN]; omega
  refine ⟨⟨(i 0).val / 2000, hlt⟩, flush1_6 _, ?_⟩
  rw [mem_blk]
  obtain ⟨-, -, -, -, -, -, -, -, -, -, -, -, e0, e1⟩ := idx_facts ⟨(i 0).val / 2000, hlt⟩
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    rw [e1]
    omega

/-- The region's output array ends holding the layer of the arrays the region was entered with. -/
theorem final (c : Dev nD) : (dat1 V c).arrAt 6 cfg1.N = whole V c :=
  (dat1 V c).arrAt_eq_of_cover 6 (whole V c) (fun t _ => flushed_eq V c t) (cover)

end

end Cert.KernelIdeal.Layer1

end
-- ==== Proof.Layer2.lean ====
/-
  The third layer's row-tiled computation, read as one whole-array function.

  The grid has 25 points; point t works on rows 2000·t … 2000·t + 1999 of the neighbour sums, of the reciprocal degrees and of
  the node features, and on the whole of both weight matrices and of the bias row. What it computes on its 2000 rows is the
  layer (`SageLayer.layer`) of those rows, with no activation: the two matrix-unit products into zero blocks
  are plain sums over the contracted coordinate, and narrowing a factor's float format changes nothing at the ideal values. A
  block of rows of the layer being the layer of that block of rows, what point t writes back is rows 2000·t … of the layer
  of the whole arrays; the 25 blocks cover all 50000 rows, so the output array ends holding the layer of the whole arrays.
-/
import proofs.«115768_j68693706932385_1_alg».proof.Proof.Gen.KernelIdeal.Frame
import proofs.«115768_j68693706932385_1_alg».proof.Proof.SageLayer
import proofs.«115768_j68693706932385_1_alg».proof.Proof.LibKeepdims
import Idealize.ShloMosaic.Lib.Pipeline.Value
import Idealize.ShloMosaic.Lib.ValueLayout

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- What a grid point computes on its blocks is the layer of those blocks. -/
theorem payload_eq (x0 : Vec Ideal S2000x128 .f32) (x1 : Vec Ideal S2000x1 .f32) (x2 : Vec Ideal S2000x128 .f32)
    (x3 : Vec Ideal S128x128 .f32) (x5 : Vec Ideal S128x128 .f32) (x4 : Vec Ideal S1x128 .f32) :
    k2_pay1 x0 x1 x2 x3 x5 x4
      = SageLayer.layer id x0 x1 x2 x3 (fun i => x4 (ix2 (0 : Fin 1) (i 0))) x5 := by
  funext j
  obtain ⟨p, q, rfl⟩ : ∃ (p : Fin 2000) (q : Fin 128), j = ix2 p q := ⟨j 0, j 1, eq_ix2 j⟩
  rw [SageLayer.layer_apply]
  unfold k2_pay1
  simp only [maximumf_apply, addf_apply, broadcast_apply, shapeCast_self]
  rw [SideBySide.kernelProduct_apply dot_S2000x128_S128x128_S2000x128_1_0_0_1_n_n rfl,
    SideBySide.kernelProduct_apply dot_S2000x128_S128x128_S2000x128_1_0_0_1_n_n rfl, broadcastTo_1b_ab_apply]
  have e1 : SideBySide.entry (truncf (F := Ideal) .bf16 (mulf (F := Ideal) x0 (broadcastTo S2000x128 x1 broadcasts_S2000x1_S2000x128)) bitsLt_bf16_f32)
      (truncf (F := Ideal) .bf16 x3 bitsLt_bf16_f32) p q = SideBySide.entry (SageLayer.mean x0 x1) x3 p q := by
    unfold SideBySide.entry
    refine Finset.sum_congr rfl fun c _ => ?_
    rw [truncf_apply, truncf_apply, mulf_apply, broadcastTo_a1_ab_apply, SageLayer.mean_apply]
  have e2 : SideBySide.entry (truncf (F := Ideal) .bf16 x2 bitsLt_bf16_f32) (truncf (F := Ideal) .bf16 x5 bitsLt_bf16_f32) p q
      = SideBySide.entry x2 x5 p q := rfl
  rw [e1, e2]
  rfl

section
variable (V : (c : Dev nD) → (b : Ref sig .tc) → Buf (Elt Ideal) ((c : Thread nD τ).loc b))

/-- The printed index maps over the grid: a row-tiled window sits at block row t, a whole-array window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 25 := by
  exact Nat.lt_of_lt_of_eq t.isLt N_2

/-- Point t's block of the neighbour sums is rows 2000·t … of the array. -/
theorem blk0_apply (c : Dev nD) (t : Fin cfg2.N) (p : Fin 2000) (k : Fin 128) :
    (iblk2 V c 0 t : Vec Ideal S2000x128 .f32) (ix2 p k)
      = (V c main_v49 : S50000x128.Idx → EReal) (ix2 ⟨2000 * t.val + p.val, by have := t_lt t; have := p.isLt; omega⟩ k) := by
  obtain ⟨e0, e1, -⟩ := idx_facts t
  unfold iblk2
  rw [View.read_apply]
  show V c main_v49 _ = V c main_v49 _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- Point t's block of the reciprocal degrees is rows 2000·t … of the column. -/
theorem blk1_apply (c : Dev nD) (t : Fin cfg2.N) (p : Fin 2000) :
    (iblk2 V c 1 t : Vec Ideal S2000x1 .f32) (ix2 p (0 : Fin 1))
      = (V c main_v15 : S50000x1.Idx → EReal) (ix2 ⟨2000 * t.val + p.val, by have := t_lt t; have := p.isLt; omega⟩ (0 : Fin 1)) := by
  obtain ⟨-, -, e0, e1, -⟩ := idx_facts t
  unfold iblk2
  rw [View.read_apply]
  show V c main_v15 _ = V c main_v15 _
  congr 1
  funext a
  apply Fin.ext
  match a with
  | ⟨0, _⟩ => show win2_1.index t (0 : Fin 2) * 2000 + 1 * p.val = 2000 * t.val + p.val; rw [e0]; omega
  | ⟨1, _⟩ => show win2_1.index t (1 : Fin 2) * 1 + 1 * 0 = 0; rw [e1]

/-- Point t's block of the node features is rows 2000·t … of the array. -/
theorem blk2_apply (c : Dev nD) (t : Fin cfg2.N) (p : Fin 2000) (k : Fin 128) :
    (iblk2 V c 2 t : Vec Ideal S2000x128 .f32) (ix2 p k)
      = (V c main_v39 : S50000x128.Idx → EReal) (ix2 ⟨2000 * t.val + p.val, by have := t_lt t; have := p.isLt; omega⟩ k) := by
  obtain ⟨-, -, -, -, e0, e1, -⟩ := idx_facts t
  unfold iblk2
  rw [View.read_apply]
  show V c main_v39 _ = V c main_v39 _
  congr 1
  funext a
  apply Fin.ext
  match a with
  | ⟨0, _⟩ => show win2_2.index t (0 : Fin 2) * 2000 + 1 * p.val = 2000 * t.val + p.val; rw [e0]; omega
  | ⟨1, _⟩ => show win2_2.index t (1 : Fin 2) * 128 + 1 * k.val = k.val; rw [e1]; omega

/-- Every point's block of the first weight matrix is the whole matrix. -/
theorem blk3_eq (c : Dev nD) (t : Fin cfg2.N) : (iblk2 V c 3 t : Vec Ideal S128x128 .f32) = V c main_arg8 := by
  obtain ⟨-, -, -, -, -, -, e0, e1, -⟩ := idx_facts t
  funext x
  unfold iblk2
  rw [View.read_apply]
  show V c main_arg8 _ = V c main_arg8 x
  congr 1
  funext a
  apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- Every point's block of the bias row is the whole row. -/
theorem blk4_eq (c : Dev nD) (t : Fin cfg2.N) : (iblk2 V c 4 t : Vec Ideal S1x128 .f32) = V c main_v50 := by
  obtain ⟨-, -, -, -, -, -, -, -, e0, e1, -⟩ := idx_facts t
  funext x
  unfold iblk2
  rw [View.read_apply]
  show V c main_v50 _ = V c main_v50 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Every point's block of the second weight matrix is the whole matrix. -/
theorem blk5_eq (c : Dev nD) (t : Fin cfg2.N) : (iblk2 V c 5 t : Vec Ideal S128x128 .f32) = V c main_arg10 := by
  obtain ⟨-, -, -, -, -, -, -, -, -, -, e0, e1, -⟩ := idx_facts t
  funext x
  unfold iblk2
  rw [View.read_apply]
  show V c main_arg10 _ = V c main_arg10 x
  congr 1
  funext a
  apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The layer of the arrays the region is entered with. -/
abbrev whole (c : Dev nD) : S50000x128.Idx → EReal :=
  SageLayer.layer id (V c main_v49) (V c main_v15) (V c main_v39) (V c main_arg8)
    (fun i => (V c main_v50 : S1x128.Idx → EReal) (ix2 (0 : Fin 1) (i 0))) (V c main_arg10)

/-- What point t writes back is rows 2000·t … 2000·t + 1999 of the layer of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x128) hz,
    View.ld_unit_zero (S := S1x128) hz]
  rw [payload_eq, blk3_eq V c t, blk4_eq V c t, blk5_eq V c t]
  funext j
  rw [View.read_apply]
  show SageLayer.layer id (iblk2 V c 0 t) (iblk2 V c 1 t) (iblk2 V c 2 t) (V c main_arg8)
    (fun i => (V c main_v50 : S1x128.Idx → EReal) (ix2 (0 : Fin 1) (i 0))) (V c main_arg10) j = _
  obtain ⟨p, q, rfl⟩ : ∃ (p : Fin 2000) (q : Fin 128), j = ix2 p q := ⟨j 0, j 1, eq_ix2 j⟩
  have hemb : ((cfg2.win 6).blk t).view.emb (ix2 p q)
      = (ix2 ⟨2000 * t.val + p.val, by have := t_lt t; have := p.isLt; omega⟩ q : S50000x128.Idx) := by
    obtain ⟨-, -, -, -, -, -, -, -, -, -, -, -, e0, e1⟩ := idx_facts t
    funext a
    apply Fin.ext
    match a with
    | ⟨0, _⟩ => show win2_6.index t (0 : Fin 2) * 2000 + 1 * p.val = 2000 * t.val + p.val; rw [e0]; omega
    | ⟨1, _⟩ => show win2_6.index t (1 : Fin 2) * 128 + 1 * q.val = q.val; rw [e1]; omega
  rw [hemb]
  exact SageLayer.layer_rows id (V c main_v49) (V c main_v15) (V c main_v39) (iblk2 V c 0 t) (iblk2 V c 1 t)
    (iblk2 V c 2 t) (V c main_arg8) (fun i => (V c main_v50 : S1x128.Idx → EReal) (ix2 (0 : Fin 1) (i 0))) (V c main_arg10)
    (2000 * t.val) (by have := t_lt t; omega) (fun p k => blk0_apply V c t p k) (fun p => blk1_apply V c t p)
    (fun p k => blk2_apply V c t p k) p q

/-- An index of the output array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v51).slice (win2_6.rect t)).set ↔ _
  rw [View.set_slice_whole, Rect.mem_set_unit]
  exact Iff.rfl

/-- The 25 blocks of 2000 rows cover the 50000 rows: row r is in the block of point r / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_6 _, ?_⟩
  rw [mem_blk]
  obtain ⟨-, -, -, -, -, -, -, -, -, -, -, -, e0, e1⟩ := idx_facts ⟨(i 0).val / 2000, hlt⟩
  intro a
  match a with
  | ⟨0, _⟩ =>
    show win2_6.index ⟨(i 0).val / 2000, hlt⟩ (0 : Fin 2) * 2000 ≤ (i 0).val
      ∧ (i 0).val < win2_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_6.index ⟨(i 0).val / 2000, hlt⟩ (1 : Fin 2) * 128 ≤ (i 1).val
      ∧ (i 1).val < win2_6.index ⟨(i 0).val / 2000, hlt⟩ (1 : Fin 2) * 128 + 128
    rw [e1]
    omega

/-- The region's output array ends holding the layer of the arrays the region was entered with. -/
theorem final (c : Dev nD) : (dat2 V c).arrAt 6 cfg2.N = whole V c :=
  (dat2 V c).arrAt_eq_of_cover 6 (whole V c) (fun t _ => flushed_eq V c t) (cover)

end

end Cert.KernelIdeal.Layer2

end
-- ==== Proof.GraphKernel.lean ====
/-
  The graph's part of the computation, as functions of the edge list and of a feature matrix.

  The edge list e is a 2×800000 array of node numbers: row 0 the edges' sources, row 1 their destinations. A source may be given
  from the end (a negative number s stands for s + 50000). The in-degree of node p is the number of edges whose destination is p
  (a scatter-add of ones); its reciprocal 1 / max(deg, 1) is kept where the degree is positive and replaced by zero elsewhere. The
  neighbour sum of a feature matrix h has, in row p, the sum of h's rows at the sources of the edges whose destination is p (a
  gather of rows followed by a scatter-add of rows). Both programs compute these by the same host operations; they are only
  named here, never opened, and so are stated for any float family.
-/
import proofs.«115768_j68693706932385_1_alg».proof.KernelIdeal
import proofs.«115768_j68693706932385_1_alg».proof.Proof.Gen.KernelIdeal

noncomputable section

namespace Cert.KernelIdeal.Graph

open Cert.KernelIdeal Cert.KernelIdeal.Gen Idealize.ShloMosaic

variable {F : FTy → Type} [FloatOps F]

/-- The edges' destinations. -/
def dstRow (e : IVec S2x800000 32) : IVec S800000 32 :=
  shapeCast S800000 (extractStridedSlice S1x800000 ![1, 0] e slices_S2x800000_S1x800000_1_0) shapeCasts_S1x800000_S800000

/-- The edges' destinations, as an 800000×1 column of node numbers. -/
def dstCol (e : IVec S2x800000 32) : IVec S800000x1 32 :=
  broadcastInDim S800000x1 ![0] bcast_S800000_S800000x1_0 (dstRow e)

/-- The edges' sources as written. -/
def srcRow (e : IVec S2x800000 32) : IVec S800000 32 :=
  shapeCast S800000 (extractStridedSlice S1x800000 ![0, 0] e slices_S2x800000_S1x800000_0_0) shapeCasts_S1x800000_S800000

/-- The edges' sources, a negative number counted from the end, as an 800000×1 column. -/
def srcCol (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The in-degree of every node. -/
def deg (e : IVec S2x800000 32) : FVec F S50000 .f32 :=
  Host.scatterAdd (F := F) scatter_S50000_S800000x1_S800000_n_0_0_1
    (broadcastInDim S50000 ![] bcast_S_S50000 (constant (F := F) S_ .f32 0x00000000#32)) (dstCol e)
    (broadcastInDim S800000 ![] bcast_S_S800000 (constant (F := F) S_ .f32 0x3F800000#32))

/-- The reciprocal in-degree, zero for a node no edge arrives at, as a 50000×1 column. -/
def invDeg (e : IVec S2x800000 32) : FVec F S50000x1 .f32 :=
  broadcastInDim S50000x1 ![0] bcast_S50000_S50000x1_0
    (select (cmpf (F := F) .ogt (deg (F := F) e) (broadcastInDim S50000 ![] bcast_S_S50000 (constant (F := F) S_ .f32 0x00000000#32)))
      (Host.divf (F := F) (broadcastInDim S50000 ![] bcast_S_S50000 (constant (F := F) S_ .f32 0x3F800000#32))
        (maximumf (F := F) (deg (F := F) e) (broadcastInDim S50000 ![] bcast_S_S50000 (constant (F := F) S_ .f32 0x3F800000#32))))
      (broadcastInDim S50000 ![] bcast_S_S50000 (id (constant (F := F) S_ .f32 0x00000000#32))))

/-- The neighbour sums of a 50000×21 feature matrix. -/
def nbrSum21 (h : FVec F S50000x21 .f32) (e : IVec S2x800000 32) : FVec F S50000x21 .f32 :=
  Host.scatterAdd (F := F) scatter_S50000x21_S800000x1_S800000x21_1_0_0_1
    (broadcastInDim S50000x21 ![] bcast_S_S50000x21 (constant (F := F) S_ .f32 0x00000000#32)) (dstCol e)
    (Host.gather gather_S50000x21_S800000x1_S800000x21_1_0_n_n_0_1_121 h (srcCol e))

/-- The neighbour sums of a 50000×256 feature matrix. -/
def nbrSum256 (h : FVec F S50000x256 .f32) (e : IVec S2x800000 32) : FVec F S50000x256 .f32 :=
  Host.scatterAdd (F := F) scatter_S50000x256_S800000x1_S800000x256_1_0_0_1
    (broadcastInDim S50000x256 ![] bcast_S_S50000x256 (constant (F := F) S_ .f32 0x00000000#32)) (dstCol e)
    (Host.gather gather_S50000x256_S800000x1_S800000x256_1_0_n_n_0_1_1256 h (srcCol e))

/-- The neighbour sums of a 50000×128 feature matrix. -/
def nbrSum128 (h : FVec F S50000x128 .f32) (e : IVec S2x800000 32) : FVec F S50000x128 .f32 :=
  Host.scatterAdd (F := F) scatter_S50000x128_S800000x1_S800000x128_1_0_0_1
    (broadcastInDim S50000x128 ![] bcast_S_S50000x128 (constant (F := F) S_ .f32 0x00000000#32)) (dstCol e)
    (Host.gather gather_S50000x128_S800000x1_S800000x128_1_0_n_n_0_1_1128 h (srcCol e))

end Cert.KernelIdeal.Graph

end
-- ==== Proof.KernelHost.lean ====
/-
  The kernel program's host stretches, read at the arrays its three row-tiled regions are entered with.

  Before the first region the host computes, from the edge list, the reciprocal in-degrees and the neighbour sums of the node
  features, and lays the first bias as a row; between the regions it computes the neighbour sums of the layer just written and
  lays the next bias as a row. No host operation and no region writes an argument, the edges' sources and destinations, or the
  reciprocal degrees once they are made, so each region is entered with them as first computed. Nothing here depends on what a
  float is: the facts hold for any float family.
-/
import proofs.«115768_j68693706932385_1_alg».proof.Proof.Gen.KernelIdeal.Frame
import proofs.«115768_j68693706932385_1_alg».proof.Proof.GraphKernel
import Idealize.ShloMosaic.Lib.StableHlo.Run

set_option maxRecDepth 16384

noncomputable section

namespace Cert.KernelIdeal.HostSide

open Cert.KernelIdeal Cert.KernelIdeal.Gen Cert.KernelIdeal.Graph
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-- Open the host stretch that ends at a boundary: what a buffer holds there, from what the buffers held at the boundary before. -/
local macro "host_read" : tactic =>
  `(tactic| (simp only [W7, W5, W3, W2, W1, hostOps2, hostOps1, hostOps0_2, hostOps0_1, hostOps0]
             first | done | after_results_simp))

/-! ## At the first region's entry -/

theorem W3_v1 : W3 m ρ c (Proc.devRef .tc main_v1) = srcRow (m ((c : Thread nD τ).loc main_arg1)) := by
  host_read <;> rfl
theorem W3_v3 : W3 m ρ c (Proc.devRef .tc main_v3) = dstRow (m ((c : Thread nD τ).loc main_arg1)) := by
  host_read <;> rfl
theorem W3_v15 : W3 m ρ c (Proc.devRef .tc main_v15) = invDeg (F := F) (m ((c : Thread nD τ).loc main_arg1)) := by
  host_read <;> rfl
theorem W3_v25 : W3 m ρ c (Proc.devRef .tc main_v25)
    = nbrSum21 (m ((c : Thread nD τ).loc main_arg0)) (m ((c : Thread nD τ).loc main_arg1)) := by
  host_read <;> rfl
theorem W3_v26 : W3 m ρ c (Proc.devRef .tc main_v26)
    = shapeCast S1x256 (m ((c : Thread nD τ).loc main_arg3)) shapeCasts_S256_S1x256 := by
  host_read <;> rfl
theorem W3_arg0 : W3 m ρ c (Proc.devRef .tc main_arg0) = m ((c : Thread nD τ).loc main_arg0) := by
  host_read <;> rfl
theorem W3_arg2 : W3 m ρ c (Proc.devRef .tc main_arg2) = m ((c : Thread nD τ).loc main_arg2) := by
  host_read <;> rfl
theorem W3_arg4 : W3 m ρ c (Proc.devRef .tc main_arg4) = m ((c : Thread nD τ).loc main_arg4) := by
  host_read <;> rfl
theorem W3_arg5 : W3 m ρ c (Proc.devRef .tc main_arg5) = m ((c : Thread nD τ).loc main_arg5) := by
  host_read <;> rfl
theorem W3_arg6 : W3 m ρ c (Proc.devRef .tc main_arg6) = m ((c : Thread nD τ).loc main_arg6) := by
  host_read <;> rfl
theorem W3_arg7 : W3 m ρ c (Proc.devRef .tc main_arg7) = m ((c : Thread nD τ).loc main_arg7) := by
  host_read <;> rfl
theorem W3_arg8 : W3 m ρ c (Proc.devRef .tc main_arg8) = m ((c : Thread nD τ).loc main_arg8) := by
  host_read <;> rfl
theorem W3_arg9 : W3 m ρ c (Proc.devRef .tc main_arg9) = m ((c : Thread nD τ).loc main_arg9) := by
  host_read <;> rfl
theorem W3_arg10 : W3 m ρ c (Proc.devRef .tc main_arg10) = m ((c : Thread nD τ).loc main_arg10) := by
  host_read <;> rfl

/-! ## Across the first region: it writes its output array only -/

theorem W4_v15 : W4 m ρ c (Proc.devRef .tc main_v15) = W3 m ρ c (Proc.devRef .tc main_v15) :=
  (W4_arr m ρ c 1).trans (((dat0 (V3 m ρ) c).arrAt_in 1 rfl _).trans (A_eq0 (V3 m ρ) c 1))

/-! ## At the second region's entry -/

theorem W5_v1 : W5 m ρ c (Proc.devRef .tc main_v1) = srcRow (m ((c : Thread nD τ).loc main_arg1)) := by
  host_read
  rw [W4_of_ne m ρ c main_v1 (by decide), W3_v1]
theorem W5_v3 : W5 m ρ c (Proc.devRef .tc main_v3) = dstRow (m ((c : Thread nD τ).loc main_arg1)) := by
  host_read
  rw [W4_of_ne m ρ c main_v3 (by decide), W3_v3]
theorem W5_v15 : W5 m ρ c (Proc.devRef .tc main_v15) = invDeg (F := F) (m ((c : Thread nD τ).loc main_arg1)) := by
  host_read
  rw [W4_v15, W3_v15]
theorem W5_v27 : W5 m ρ c (Proc.devRef .tc main_v27) = W4 m ρ c (Proc.devRef .tc main_v27) := by
  host_read <;> rfl
theorem W5_v37 : W5 m ρ c (Proc.devRef .tc main_v37)
    = nbrSum256 (W4 m ρ c (Proc.devRef .tc main_v27)) (m ((c : Thread nD τ).loc main_arg1)) := by
  host_read
  rw [W4_of_ne m ρ c main_v1 (by decide), W4_of_ne m ρ c main_v3 (by decide), W3_v1, W3_v3]
  rfl
theorem W5_v38 : W5 m ρ c (Proc.devRef .tc main_v38)
    = shapeCast S1x128 (m ((c : Thread nD τ).loc main_arg6)) shapeCasts_S128_S1x128 := by
  host_read
  rw [W4_of_ne m ρ c main_arg6 (by decide), W3_arg6]
  rfl
theorem W5_arg5 : W5 m ρ c (Proc.devRef .tc main_arg5) = m ((c : Thread nD τ).loc main_arg5) := by
  host_read
  rw [W4_of_ne m ρ c main_arg5 (by decide), W3_arg5]
theorem W5_arg7 : W5 m ρ c (Proc.devRef .tc main_arg7) = m ((c : Thread nD τ).loc main_arg7) := by
  host_read
  rw [W4_of_ne m ρ c main_arg7 (by decide), W3_arg7]
theorem W5_arg8 : W5 m ρ c (Proc.devRef .tc main_arg8) = m ((c : Thread nD τ).loc main_arg8) := by
  host_read
  rw [W4_of_ne m ρ c main_arg8 (by decide), W3_arg8]
theorem W5_arg9 : W5 m ρ c (Proc.devRef .tc main_arg9) = m ((c : Thread nD τ).loc main_arg9) := by
  host_read
  rw [W4_of_ne m ρ c main_arg9 (by decide), W3_arg9]
theorem W5_arg10 : W5 m ρ c (Proc.devRef .tc main_arg10) = m ((c : Thread nD τ).loc main_arg10) := by
  host_read
  rw [W4_of_ne m ρ c main_arg10 (by decide), W3_arg10]

/-! ## Across the second region -/

theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))

/-! ## At the third region's entry -/

theorem W7_v15 : W7 m ρ c (Proc.devRef .tc main_v15) = invDeg (F := F) (m ((c : Thread nD τ).loc main_arg1)) := by
  host_read
  rw [W6_v15, W5_v15]
theorem W7_v39 : W7 m ρ c (Proc.devRef .tc main_v39) = W6 m ρ c (Proc.devRef .tc main_v39) := by
  host_read <;> rfl
theorem W7_v49 : W7 m ρ c (Proc.devRef .tc main_v49)
    = nbrSum128 (W6 m ρ c (Proc.devRef .tc main_v39)) (m ((c : Thread nD τ).loc main_arg1)) := by
  host_read
  rw [W6_of_ne m ρ c main_v1 (by decide), W6_of_ne m ρ c main_v3 (by decide), W5_v1, W5_v3]
  rfl
theorem W7_v50 : W7 m ρ c (Proc.devRef .tc main_v50)
    = shapeCast S1x128 (m ((c : Thread nD τ).loc main_arg9)) shapeCasts_S128_S1x128 := by
  host_read
  rw [W6_of_ne m ρ c main_arg9 (by decide), W5_arg9]
  rfl
theorem W7_arg8 : W7 m ρ c (Proc.devRef .tc main_arg8) = m ((c : Thread nD τ).loc main_arg8) := by
  host_read
  rw [W6_of_ne m ρ c main_arg8 (by decide), W5_arg8]
theorem W7_arg10 : W7 m ρ c (Proc.devRef .tc main_arg10) = m ((c : Thread nD τ).loc main_arg10) := by
  host_read
  rw [W6_of_ne m ρ c main_arg10 (by decide), W5_arg10]

end Cert.KernelIdeal.HostSide

end
-- ==== Proof.KernelValue.lean ====
/-
  The kernel program's result as the three layers composed.

  The first region is entered with the neighbour sums of the node features, the reciprocal degrees, the features, and the first
  layer's weights and bias (laid as a row); it leaves the first layer's output. The host then forms the neighbour sums of that
  output, and the second region, entered with them, the same reciprocal degrees, that output and the second layer's weights, leaves
  the second layer's output; likewise the third, which applies no activation. A bias laid as a 1×b row and read back along
  the row is the bias.
-/
import proofs.«115768_j68693706932385_1_alg».proof.Proof.AllBuffers
import proofs.«115768_j68693706932385_1_alg».proof.Proof.Layer0
import proofs.«115768_j68693706932385_1_alg».proof.Proof.Layer1
import proofs.«115768_j68693706932385_1_alg».proof.Proof.Layer2
import proofs.«115768_j68693706932385_1_alg».proof.Proof.KernelHost
import Idealize.ShloMosaic.Lib.ValueLayout

set_option maxRecDepth 16384

noncomputable section

namespace Cert.KernelIdeal.Network

open Cert.KernelIdeal Cert.KernelIdeal.Gen Cert.KernelIdeal.Graph Cert.KernelIdeal.HostSide
open Idealize.ShloMosaic Idealize.ShloMosaic.TcCoe Idealize.ShloMosaic.ValueIdx Idealize.SL.Sem

/-- The three layers composed: the node features x, the edge list e, and the three layers' weights and biases. -/
def network (x : FVec Ideal S50000x21 .f32) (e : IVec S2x800000 32)
    (Wl1 : FVec Ideal S21x256 .f32) (bl1 : FVec Ideal S256 .f32) (Wr1 : FVec Ideal S21x256 .f32)
    (Wl2 : FVec Ideal S256x128 .f32) (bl2 : FVec Ideal S128 .f32) (Wr2 : FVec Ideal S256x128 .f32)
    (Wl3 : FVec Ideal S128x128 .f32) (bl3 : FVec Ideal S128 .f32) (Wr3 : FVec Ideal S128x128 .f32) : FVec Ideal S50000x128 .f32 :=
  let h1 : FVec Ideal S50000x256 .f32 := SageLayer.layer SageLayer.relu (nbrSum21 x e) (invDeg (F := Ideal) e) x Wl1 bl1 Wr1
  let h2 : FVec Ideal S50000x128 .f32 := SageLayer.layer SageLayer.relu (nbrSum256 h1 e) (invDeg (F := Ideal) e) h1 Wl2 bl2 Wr2
  SageLayer.layer id (nbrSum128 h2 e) (invDeg (F := Ideal) e) h2 Wl3 bl3 Wr3

/-- A 256-vector laid as a 1×256 row and read along the row is the vector. -/
theorem row256 (b : FVec Ideal S256 .f32) :
    (fun i : S256.Idx => (shapeCast S1x256 b shapeCasts_S256_S1x256 : S1x256.Idx → EReal) (ix2 (0 : Fin 1) (i 0))) = b := by
  funext i
  obtain ⟨q, rfl⟩ : ∃ q : Fin 256, i = ix1 q := ⟨i 0, eq_ix1 i⟩
  exact shapeCast_a_1a_apply b shapeCasts_S256_S1x256 (0 : Fin 1) q

/-- A 128-vector laid as a 1×128 row and read along the row is the vector. -/
theorem row128 (b : FVec Ideal S128 .f32) :
    (fun i : S128.Idx => (shapeCast S1x128 b shapeCasts_S128_S1x128 : S1x128.Idx → EReal) (ix2 (0 : Fin 1) (i 0))) = b := by
  funext i
  obtain ⟨q, rfl⟩ : ∃ q : Fin 128, i = ix1 q := ⟨i 0, eq_ix1 i⟩
  exact shapeCast_a_1a_apply b shapeCasts_S128_S1x128 (0 : Fin 1) q

variable (m : (ℓ : Loc nD τ sig) → Buf (Elt Ideal) ℓ) (ρ : Dev nD → PrngReg) (c : Dev nD)

/-- After the first region its output array holds the first layer. -/
theorem first : W4 m ρ c (Proc.devRef .tc main_v27)
    = SageLayer.layer SageLayer.relu
        (nbrSum21 (F := Ideal) (m ((c : Thread nD τ).loc main_arg0)) (m ((c : Thread nD τ).loc main_arg1)))
        (invDeg (F := Ideal) (m ((c : Thread nD τ).loc main_arg1))) (m ((c : Thread nD τ).loc main_arg0))
        (m ((c : Thread nD τ).loc main_arg2)) (m ((c : Thread nD τ).loc main_arg3)) (m ((c : Thread nD τ).loc main_arg4)) := by
  refine (W4_arr m ρ c 6).trans ((Layer0.final (V3 m ρ) c).trans ?_)
  show SageLayer.layer SageLayer.relu (W3 m ρ c (Proc.devRef .tc main_v25)) (W3 m ρ c (Proc.devRef .tc main_v15))
    (W3 m ρ c (Proc.devRef .tc main_arg0)) (W3 m ρ c (Proc.devRef .tc main_arg2))
    (fun i => (W3 m ρ c (Proc.devRef .tc main_v26) : S1x256.Idx → EReal) (ix2 (0 : Fin 1) (i 0)))
    (W3 m ρ c (Proc.devRef .tc main_arg4)) = _
  rw [W3_v25, W3_v15, W3_arg0, W3_arg2, W3_v26, W3_arg4, row256]

/-- After the second region its output array holds the second layer, of the first region's output. -/
theorem second : W6 m ρ c (Proc.devRef .tc main_v39)
    = SageLayer.layer SageLayer.relu
        (nbrSum256 (F := Ideal) (W4 m ρ c (Proc.devRef .tc main_v27)) (m ((c : Thread nD τ).loc main_arg1)))
        (invDeg (F := Ideal) (m ((c : Thread nD τ).loc main_arg1))) (W4 m ρ c (Proc.devRef .tc main_v27))
        (m ((c : Thread nD τ).loc main_arg5)) (m ((c : Thread nD τ).loc main_arg6)) (m ((c : Thread nD τ).loc main_arg7)) := by
  refine (W6_arr m ρ c 6).trans ((Layer1.final (V5 m ρ) c).trans ?_)
  show SageLayer.layer SageLayer.relu (W5 m ρ c (Proc.devRef .tc main_v37)) (W5 m ρ c (Proc.devRef .tc main_v15))
    (W5 m ρ c (Proc.devRef .tc main_v27)) (W5 m ρ c (Proc.devRef .tc main_arg5))
    (fun i => (W5 m ρ c (Proc.devRef .tc main_v38) : S1x128.Idx → EReal) (ix2 (0 : Fin 1) (i 0)))
    (W5 m ρ c (Proc.devRef .tc main_arg7)) = _
  rw [W5_v37, W5_v15, W5_v27, W5_arg5, W5_v38, W5_arg7, row128]

/-- After the third region its output array holds the third layer, of the second region's output. -/
theorem third : (dat2 (V7 m ρ) c).arrAt 6 cfg2.N
    = SageLayer.layer id
        (nbrSum128 (F := Ideal) (W6 m ρ c (Proc.devRef .tc main_v39)) (m ((c : Thread nD τ).loc main_arg1)))
        (invDeg (F := Ideal) (m ((c : Thread nD τ).loc main_arg1))) (W6 m ρ c (Proc.devRef .tc main_v39))
        (m ((c : Thread nD τ).loc main_arg8)) (m ((c : Thread nD τ).loc main_arg9)) (m ((c : Thread nD τ).loc main_arg10)) := by
  refine (Layer2.final (V7 m ρ) c).trans ?_
  show SageLayer.layer id (W7 m ρ c (Proc.devRef .tc main_v49)) (W7 m ρ c (Proc.devRef .tc main_v15))
    (W7 m ρ c (Proc.devRef .tc main_v39)) (W7 m ρ c (Proc.devRef .tc main_arg8))
    (fun i => (W7 m ρ c (Proc.devRef .tc main_v50) : S1x128.Idx → EReal) (ix2 (0 : Fin 1) (i 0)))
    (W7 m ρ c (Proc.devRef .tc main_arg10)) = _
  rw [W7_v49, W7_v15, W7_v39, W7_arg8, W7_v50, W7_arg10, row128]

/-- The last region's output array is the network of the arguments. -/
theorem result : (dat2 (V7 m ρ) c).arrAt 6 cfg2.N
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [third, second, first]
  rfl

/-- Every weakly fair execution of the kernel program terminates, nothing faulting, with the result at the network of the
    arguments and the arguments as launched. -/
theorem run : θ_run defs (onTc (τ := τ) (main (F := Ideal))) ⟨m, fun _ => 0, ρ⟩ (fun r => ∀ c : Dev nD,
      r.2.mem ((c.tc : Thread nD τ).loc main_v51)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.Whole.run_result m ρ)

end Cert.KernelIdeal.Network

end
-- ==== Proof.LibBroadcastInDim.lean ====
/-
  The host's `broadcast_in_dim` read at an index given by coordinates, for the four forms a bias row and a per-row scale
  take on their way to a matrix: a column `[a, 1]` spread along its unit axis to `[a, b]`; a row `[1, b]` spread along
  its unit axis to `[a, b]`; a vector `[b]` laid as the row `[1, b]`; and a scalar spread to any shape. The index is
  written with the literal-size constructors `ix1`, `ix2`, so that each lemma applies to a printed operation by
  unification.
-/
import Idealize.ShloMosaic.Lib.Pipeline.Value
import Idealize.ShloMosaic.Lib.ValueIdx

namespace Idealize.ShloMosaic.ValueIdx

open Idealize.ShloMosaic

variable {α : Type}

/-- A column `[a, 1]` spread to `[a, b]` (axes kept in place) reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply _ h x (ix2 p q) (ix2 p (0 : Fin 1)) (fun ax => match ax with
    | ⟨0, _⟩ => by
      show p.val = if a = 1 then 0 else p.val
      split
      · have := p.isLt; omega
      · rfl
    | ⟨1, _⟩ => by show 0 = if (1 : Nat) = 1 then 0 else q.val; rw [if_pos rfl])

/-- A row `[1, b]` spread to `[a, b]` (axes kept in place) reads, at `(p, q)`, the row's entry of column `q`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply _ h x (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- A vector `[b]` laid as the row `[1, b]` reads, at `(u, q)`, the vector's entry `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) (fun ax => match ax with
    | ⟨0, _⟩ => by
      show q.val = if b = 1 then 0 else q.val
      split
      · have := q.isLt; omega
      · rfl)

/-- A scalar spread to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 (fun ax => ax.elim0)

end Idealize.ShloMosaic.ValueIdx
-- ==== Proof.GraphReference.lean ====
/-
  The graph's part of the computation, as functions of the edge list and of a feature matrix.

  The edge list e is a 2×800000 array of node numbers: row 0 the edges' sources, row 1 their destinations. A source may be given
  from the end (a negative number s stands for s + 50000). The in-degree of node p is the number of edges whose destination is p
  (a scatter-add of ones); its reciprocal 1 / max(deg, 1) is kept where the degree is positive and replaced by zero elsewhere. The
  neighbour sum of a feature matrix h has, in row p, the sum of h's rows at the sources of the edges whose destination is p (a
  gather of rows followed by a scatter-add of rows). Both programs compute these by the same host operations; they are only
  named here, never opened, and so are stated for any float family.
-/
import proofs.«115768_j68693706932385_1_alg».proof.ReferenceIdeal
import proofs.«115768_j68693706932385_1_alg».proof.Proof.Gen.ReferenceIdeal

noncomputable section

namespace Cert.ReferenceIdeal.Graph

open Cert.ReferenceIdeal Cert.ReferenceIdeal.Gen Idealize.ShloMosaic

variable {F : FTy → Type} [FloatOps F]

/-- The edges' destinations. -/
def dstRow (e : IVec S2x800000 32) : IVec S800000 32 :=
  shapeCast S800000 (extractStridedSlice S1x800000 ![1, 0] e slices_S2x800000_S1x800000_1_0) shapeCasts_S1x800000_S800000

/-- The edges' destinations, as an 800000×1 column of node numbers. -/
def dstCol (e : IVec S2x800000 32) : IVec S800000x1 32 :=
  broadcastInDim S800000x1 ![0] bcast_S800000_S800000x1_0 (dstRow e)

/-- The edges' sources as written. -/
def srcRow (e : IVec S2x800000 32) : IVec S800000 32 :=
  shapeCast S800000 (extractStridedSlice S1x800000 ![0, 0] e slices_S2x800000_S1x800000_0_0) shapeCasts_S1x800000_S800000

/-- The edges' sources, a negative number counted from the end, as an 800000×1 column. -/
def srcCol (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The in-degree of every node. -/
def deg (e : IVec S2x800000 32) : FVec F S50000 .f32 :=
  Host.scatterAdd (F := F) scatter_S50000_S800000x1_S800000_n_0_0_1
    (broadcastInDim S50000 ![] bcast_S_S50000 (constant (F := F) S_ .f32 0x00000000#32)) (dstCol e)
    (broadcastInDim S800000 ![] bcast_S_S800000 (constant (F := F) S_ .f32 0x3F800000#32))

/-- The reciprocal in-degree, zero for a node no edge arrives at, as a 50000×1 column. -/
def invDeg (e : IVec S2x800000 32) : FVec F S50000x1 .f32 :=
  broadcastInDim S50000x1 ![0] bcast_S50000_S50000x1_0
    (select (cmpf (F := F) .ogt (deg (F := F) e) (broadcastInDim S50000 ![] bcast_S_S50000 (constant (F := F) S_ .f32 0x00000000#32)))
      (Host.divf (F := F) (broadcastInDim S50000 ![] bcast_S_S50000 (constant (F := F) S_ .f32 0x3F800000#32))
        (maximumf (F := F) (deg (F := F) e) (broadcastInDim S50000 ![] bcast_S_S50000 (constant (F := F) S_ .f32 0x3F800000#32))))
      (broadcastInDim S50000 ![] bcast_S_S50000 (id (constant (F := F) S_ .f32 0x00000000#32))))

/-- The neighbour sums of a 50000×21 feature matrix. -/
def nbrSum21 (h : FVec F S50000x21 .f32) (e : IVec S2x800000 32) : FVec F S50000x21 .f32 :=
  Host.scatterAdd (F := F) scatter_S50000x21_S800000x1_S800000x21_1_0_0_1
    (broadcastInDim S50000x21 ![] bcast_S_S50000x21 (constant (F := F) S_ .f32 0x00000000#32)) (dstCol e)
    (Host.gather gather_S50000x21_S800000x1_S800000x21_1_0_n_n_0_1_121 h (srcCol e))

/-- The neighbour sums of a 50000×256 feature matrix. -/
def nbrSum256 (h : FVec F S50000x256 .f32) (e : IVec S2x800000 32) : FVec F S50000x256 .f32 :=
  Host.scatterAdd (F := F) scatter_S50000x256_S800000x1_S800000x256_1_0_0_1
    (broadcastInDim S50000x256 ![] bcast_S_S50000x256 (constant (F := F) S_ .f32 0x00000000#32)) (dstCol e)
    (Host.gather gather_S50000x256_S800000x1_S800000x256_1_0_n_n_0_1_1256 h (srcCol e))

/-- The neighbour sums of a 50000×128 feature matrix. -/
def nbrSum128 (h : FVec F S50000x128 .f32) (e : IVec S2x800000 32) : FVec F S50000x128 .f32 :=
  Host.scatterAdd (F := F) scatter_S50000x128_S800000x1_S800000x128_1_0_0_1
    (broadcastInDim S50000x128 ![] bcast_S_S50000x128 (constant (F := F) S_ .f32 0x00000000#32)) (dstCol e)
    (Host.gather gather_S50000x128_S800000x1_S800000x128_1_0_n_n_0_1_1128 h (srcCol e))

end Cert.ReferenceIdeal.Graph

end
-- ==== Proof.RefLayers.lean ====
/-
  The reference's three layers, each read as the layer of `SageLayer`, and its result as their composition.

  The host forms the neighbour mean as the product of the neighbour sums with the reciprocal degrees spread along each row,
  multiplies by the first weight matrix, adds the bias spread along each column, adds the product of the node features with the
  second weight matrix, and (in the first two layers) takes the positive part against a zero spread over the array. Read at an
  entry (p, q), each spread reads its one source entry and each product is the plain sum over the contracted coordinate. The
  neighbour sums fed to a layer are those of the layer before; the reciprocal degrees are the same throughout.
-/
import proofs.«115768_j68693706932385_1_alg».proof.Proof.ReferenceRun
import proofs.«115768_j68693706932385_1_alg».proof.Proof.SageLayer
import proofs.«115768_j68693706932385_1_alg».proof.Proof.LibBroadcastInDim
import proofs.«115768_j68693706932385_1_alg».proof.Proof.GraphReference

noncomputable section

namespace Cert.ReferenceIdeal.Layers

open Cert.ReferenceIdeal Cert.ReferenceIdeal.Gen Cert.ReferenceIdeal.Graph
open Idealize.ShloMosaic Idealize.ShloMosaic.TcCoe Idealize.ShloMosaic.ValueIdx

/-- Layer 1 as the host computes it — the mean by a product with the spread reciprocal degrees, two products, the spread
    bias, the positive part — is the layer, entry by entry. -/
theorem layer1_eq (agg : FVec Ideal S50000x21 .f32) (inv : FVec Ideal S50000x1 .f32) (h : FVec Ideal S50000x21 .f32)
    (Wl : FVec Ideal S21x256 .f32) (bl : FVec Ideal S256 .f32) (Wr : FVec Ideal S21x256 .f32) :
    maximumf (addf (addf (Host.dotGeneral dot_S50000x21_S21x256_S50000x256_1_0_0_1_n_n none
          (mulf agg (broadcastInDim S50000x21 ![0, 1] bcast_S50000x1_S50000x21_0_1 inv)) Wl)
        (broadcastInDim S50000x256 ![0, 1] bcast_S1x256_S50000x256_0_1 (broadcastInDim S1x256 ![1] bcast_S256_S1x256_1 bl)))
      (Host.dotGeneral dot_S50000x21_S21x256_S50000x256_1_0_0_1_n_n none h Wr))
      (broadcastInDim S50000x256 ![] bcast_S_S50000x256 (constant (F := Ideal) S_ .f32 0x00000000#32))
      = SageLayer.layer SageLayer.relu agg inv h Wl bl Wr := by
  funext j
  obtain ⟨p, q, rfl⟩ : ∃ (p : Fin 50000) (q : Fin 256), j = ix2 p q := ⟨j 0, j 1, eq_ix2 j⟩
  rw [SageLayer.layer_apply]
  simp only [maximumf_apply, addf_apply]
  rw [SideBySide.hostProduct_apply dot_S50000x21_S21x256_S50000x256_1_0_0_1_n_n rfl, SideBySide.hostProduct_apply dot_S50000x21_S21x256_S50000x256_1_0_0_1_n_n rfl,
    broadcastInDim_1b_ab_apply, broadcastInDim_b_1b_apply, broadcastInDim_scalar_apply]
  have e1 : SideBySide.entry (mulf (F := Ideal) agg (broadcastInDim S50000x21 ![0, 1] bcast_S50000x1_S50000x21_0_1 inv)) Wl p q
      = SideBySide.entry (SageLayer.mean agg inv) Wl p q := by
    unfold SideBySide.entry
    refine Finset.sum_congr rfl fun c _ => ?_
    rw [mulf_apply, broadcastInDim_a1_ab_apply, SageLayer.mean_apply]
  rw [e1]
  rfl

/-- Layer 2 as the host computes it — the mean by a product with the spread reciprocal degrees, two products, the spread
    bias, the positive part — is the layer, entry by entry. -/
theorem layer2_eq (agg : FVec Ideal S50000x256 .f32) (inv : FVec Ideal S50000x1 .f32) (h : FVec Ideal S50000x256 .f32)
    (Wl : FVec Ideal S256x128 .f32) (bl : FVec Ideal S128 .f32) (Wr : FVec Ideal S256x128 .f32) :
    maximumf (addf (addf (Host.dotGeneral dot_S50000x256_S256x128_S50000x128_1_0_0_1_n_n none
          (mulf agg (broadcastInDim S50000x256 ![0, 1] bcast_S50000x1_S50000x256_0_1 inv)) Wl)
        (broadcastInDim S50000x128 ![0, 1] bcast_S1x128_S50000x128_0_1 (broadcastInDim S1x128 ![1] bcast_S128_S1x128_1 bl)))
      (Host.dotGeneral dot_S50000x256_S256x128_S50000x128_1_0_0_1_n_n none h Wr))
      (broadcastInDim S50000x128 ![] bcast_S_S50000x128 (constant (F := Ideal) S_ .f32 0x00000000#32))
      = SageLayer.layer SageLayer.relu agg inv h Wl bl Wr := by
  funext j
  obtain ⟨p, q, rfl⟩ : ∃ (p : Fin 50000) (q : Fin 128), j = ix2 p q := ⟨j 0, j 1, eq_ix2 j⟩
  rw [SageLayer.layer_apply]
  simp only [maximumf_apply, addf_apply]
  rw [SideBySide.hostProduct_apply dot_S50000x256_S256x128_S50000x128_1_0_0_1_n_n rfl, SideBySide.hostProduct_apply dot_S50000x256_S256x128_S50000x128_1_0_0_1_n_n rfl,
    broadcastInDim_1b_ab_apply, broadcastInDim_b_1b_apply, broadcastInDim_scalar_apply]
  have e1 : SideBySide.entry (mulf (F := Ideal) agg (broadcastInDim S50000x256 ![0, 1] bcast_S50000x1_S50000x256_0_1 inv)) Wl p q
      = SideBySide.entry (SageLayer.mean agg inv) Wl p q := by
    unfold SideBySide.entry
    refine Finset.sum_congr rfl fun c _ => ?_
    rw [mulf_apply, broadcastInDim_a1_ab_apply, SageLayer.mean_apply]
  rw [e1]
  rfl

/-- Layer 3 as the host computes it — the mean by a product with the spread reciprocal degrees, two products, the spread
    bias — is the layer, entry by entry. -/
theorem layer3_eq (agg : FVec Ideal S50000x128 .f32) (inv : FVec Ideal S50000x1 .f32) (h : FVec Ideal S50000x128 .f32)
    (Wl : FVec Ideal S128x128 .f32) (bl : FVec Ideal S128 .f32) (Wr : FVec Ideal S128x128 .f32) :
    addf (addf (Host.dotGeneral dot_S50000x128_S128x128_S50000x128_1_0_0_1_n_n none
          (mulf agg (broadcastInDim S50000x128 ![0, 1] bcast_S50000x1_S50000x128_0_1 inv)) Wl)
        (broadcastInDim S50000x128 ![0, 1] bcast_S1x128_S50000x128_0_1 (broadcastInDim S1x128 ![1] bcast_S128_S1x128_1 bl)))
      (Host.dotGeneral dot_S50000x128_S128x128_S50000x128_1_0_0_1_n_n none h Wr)
      = SageLayer.layer id agg inv h Wl bl Wr := by
  funext j
  obtain ⟨p, q, rfl⟩ : ∃ (p : Fin 50000) (q : Fin 128), j = ix2 p q := ⟨j 0, j 1, eq_ix2 j⟩
  rw [SageLayer.layer_apply]
  simp only [maximumf_apply, addf_apply]
  rw [SideBySide.hostProduct_apply dot_S50000x128_S128x128_S50000x128_1_0_0_1_n_n rfl, SideBySide.hostProduct_apply dot_S50000x128_S128x128_S50000x128_1_0_0_1_n_n rfl,
    broadcastInDim_1b_ab_apply, broadcastInDim_b_1b_apply]
  have e1 : SideBySide.entry (mulf (F := Ideal) agg (broadcastInDim S50000x128 ![0, 1] bcast_S50000x1_S50000x128_0_1 inv)) Wl p q
      = SideBySide.entry (SageLayer.mean agg inv) Wl p q := by
    unfold SideBySide.entry
    refine Finset.sum_congr rfl fun c _ => ?_
    rw [mulf_apply, broadcastInDim_a1_ab_apply, SageLayer.mean_apply]
  rw [e1]
  rfl

/-- The three layers composed: the node features x, the edge list e, and the three layers' weights and biases. -/
def network (x : FVec Ideal S50000x21 .f32) (e : IVec S2x800000 32)
    (Wl1 : FVec Ideal S21x256 .f32) (bl1 : FVec Ideal S256 .f32) (Wr1 : FVec Ideal S21x256 .f32)
    (Wl2 : FVec Ideal S256x128 .f32) (bl2 : FVec Ideal S128 .f32) (Wr2 : FVec Ideal S256x128 .f32)
    (Wl3 : FVec Ideal S128x128 .f32) (bl3 : FVec Ideal S128 .f32) (Wr3 : FVec Ideal S128x128 .f32) : FVec Ideal S50000x128 .f32 :=
  let h1 : FVec Ideal S50000x256 .f32 := SageLayer.layer SageLayer.relu (nbrSum21 x e) (invDeg (F := Ideal) e) x Wl1 bl1 Wr1
  let h2 : FVec Ideal S50000x128 .f32 := SageLayer.layer SageLayer.relu (nbrSum256 h1 e) (invDeg (F := Ideal) e) h1 Wl2 bl2 Wr2
  SageLayer.layer id (nbrSum128 h2 e) (invDeg (F := Ideal) e) h2 Wl3 bl3 Wr3

variable (m : (ℓ : Loc nD τ sig) → Buf (Elt Ideal) ℓ) (c : Dev nD)

set_option maxRecDepth 16384 in
/-- The reference's result is the network of its arguments. -/
theorem result_eq : Cert.ReferenceIdeal.RunP.res_main_v71 (F := Ideal) m c
    = network (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  unfold Cert.ReferenceIdeal.RunP.res_main_v71
  rw [layer1_eq, layer2_eq, layer3_eq]
  rfl

end Cert.ReferenceIdeal.Layers

end
-- ==== Proof.lean ====
/-
  The certificate: a three-layer mean-aggregation graph network, its row-tiled kernel program against the plain reference.

  Each of the three layers takes the neighbour sums of its input features (gathered along the edges' sources and added up at
  their destinations), scales row p by the reciprocal in-degree of node p, multiplies by one weight matrix, adds a bias, adds the
  input features times a second weight matrix, and (in the first two layers) takes the positive part. The kernel program
  computes the dense part of each layer in a region of 25 row blocks, on the matrix unit with factors narrowed to a shorter
  float format; the graph part it leaves to the host, exactly as the reference does. At the ideal values a change of format is
  the identity and a matrix product is a plain finite sum, whichever unit forms it, so each region's output array is the layer
  of the arrays it was entered with (`Layer0`, `Layer1`, `Layer2`), the kernel program's result is the three layers composed
  (`KernelValue`), and so is the reference's (`RefLayers`). Nothing in the argument asks that an input be finite: no law beyond
  commutativity and associativity of the sums is used, and the precondition is never opened.
-/
import proofs.«115768_j68693706932385_1_alg».proof.Defs
import proofs.«115768_j68693706932385_1_alg».proof.Proof.Gen.Kernel
import proofs.«115768_j68693706932385_1_alg».proof.Proof.Gen.Kernel.Skeleton
import proofs.«115768_j68693706932385_1_alg».proof.Proof.Gen.Kernel.Launch
import proofs.«115768_j68693706932385_1_alg».proof.Proof.Gen.Kernel.Points
import proofs.«115768_j68693706932385_1_alg».proof.Proof.Gen.Kernel.Frame
import proofs.«115768_j68693706932385_1_alg».proof.Proof.Gen.KernelIdeal
import proofs.«115768_j68693706932385_1_alg».proof.Proof.Gen.KernelIdeal.Skeleton
import proofs.«115768_j68693706932385_1_alg».proof.Proof.Gen.KernelIdeal.Launch
import proofs.«115768_j68693706932385_1_alg».proof.Proof.Gen.KernelIdeal.Points
import proofs.«115768_j68693706932385_1_alg».proof.Proof.Gen.KernelIdeal.Frame
import proofs.«115768_j68693706932385_1_alg».proof.Proof.Gen.ReferenceIdeal
import proofs.«115768_j68693706932385_1_alg».proof.Proof.Gen.Pre_finite_inputs
import proofs.«115768_j68693706932385_1_alg».proof.Proof.KernelValue
import proofs.«115768_j68693706932385_1_alg».proof.Proof.RefLayers
import Idealize.ShloMosaic.Adequacy
import Idealize.ShloMosaic.Init

noncomputable section

namespace Cert.Proof

open Idealize.ShloMosaic Idealize.SL.Sem

/-- The two programs name the same network: their shape records are spelt alike. -/
theorem network_eq : @Cert.KernelIdeal.Network.network = @Cert.ReferenceIdeal.Layers.network := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the network of the arguments in their result. -/
theorem algebraic : Cert.algebraic_KernelIdeal_ReferenceIdeal := by
  intro m ρ m' ρ' _ hagree
  refine ⟨_, Cert.KernelIdeal.Network.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8, e9, e10⟩ := hagree c
  rw [Cert.ReferenceIdeal.Layers.result_eq, e0, e1, e2, e3, e4, e5, e6, e7, e8, e9, e10, network_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
